-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S8192 : Shape := ⟨1, ![8192]⟩
abbrev S_ : Shape := ⟨0, ![]⟩
abbrev S1x10000 : Shape := ⟨2, ![1, 10000]⟩
abbrev S1 : Shape := ⟨1, ![1]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel
  bcast_S_S8192 : S_.BroadcastsInDim S8192 (![] : Fin 0 → Fin S8192.rank)
  reducesTo_S8192_S_d0 : S8192.ReducesTo [0] S_
  reducesTo_S_S_d : S_.ReducesTo [] S_
  bcast_S_S1x10000 : S_.BroadcastsInDim S1x10000 (![] : Fin 0 → Fin S1x10000.rank)
  reducesTo_S1x10000_S_d0_1 : S1x10000.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x10000 .f32) (main_arg7 : FVec F S1 .f32) (main_v12 : IVec S_ 1) (main_v15 : IVec S8192x10000 1) (main_c_5 : IVec S_ 1) : IVec S_ 1 :=
  let main_v16 : IVec S_ 1 := (fun x v => Host.reduce IntOp.andi x v reducesTo_S8192x10000_S_d0_1 h_S_) main_v15 main_c_5
  let main_v17 : IVec S_ 1 := andi main_v12 main_v16
  let main_v18 : FVec F S1x10000 .f32 := Host.absf main_arg6
  let main_cst_6 : FVec F S_ .f32 := constant S_ .f32 0x7F800000#32
  let main_v19 : FVec F S1x10000 .f32 := broadcastInDim S1x10000 ![] bcast_S_S1x10000 main_cst_6
  let main_v20 : IVec S1x10000 1 := cmpf .olt main_v18 main_v19
  let main_c_7 : IVec S_ 1 := constantI S_ 1 1#1
  let main_v21 : IVec S_ 1 := (fun x v => Host.reduce IntOp.andi x v reducesTo_S1x10000_S_d0_1 h_S_) main_v20 main_c_7
  let main_v22 : IVec S_ 1 := andi main_v17 main_v21
  let main_v23 : FVec F S1 .f32 := Host.absf main_arg7
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v22 main_v26
  main_v27

def fn {F : FTy → Type} [FloatOps F] (main_arg0 : FVec F S8192x10000 .f32) (main_arg1 : IVec S8192 32) (main_arg2 : FVec F S8192 .f32) (main_arg3 : FVec F S_ .f32) (main_arg4 : FVec F S8192x10000 .f32) (main_arg5 : IVec S8192 1) (main_arg6 : FVec F S1x10000 .f32) (main_arg7 : FVec F S1 .f32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S8192x10000 .f32 := Host.absf main_arg4
  let main_cst_4 : FVec F S_ .f32 := constant S_ .f32 0x7F800000#32
  let main_v14 : FVec F S8192x10000 .f32 := broadcastInDim S8192x10000 ![] bcast_S_S8192x10000 main_cst_4
  let main_v15 : IVec S8192x10000 1 := cmpf .olt main_v13 main_v14
  let main_c_5 : IVec S_ 1 := constantI S_ 1 1#1
  fn_part1 (F := F) main_arg6 main_arg7 main_v12 main_v15 main_c_5
-- ==== Kernel.lean ====
abbrev S8192x10000 : Shape := ⟨2, ![8192, 10000]⟩
abbrev S8192 : Shape := ⟨1, ![8192]⟩
abbrev S_ : Shape := ⟨0, ![]⟩
abbrev S1x10000 : Shape := ⟨2, ![1, 10000]⟩
abbrev S1 : Shape := ⟨1, ![1]⟩
abbrev S10000x1 : Shape := ⟨2, ![10000, 1]⟩
abbrev S1x1 : Shape := ⟨2, ![1, 1]⟩
abbrev S128x10000 : Shape := ⟨2, ![128, 10000]⟩
abbrev S128 : Shape := ⟨1, ![128]⟩
abbrev S128x1 : Shape := ⟨2, ![128, 1]⟩

abbrev nBuf : Space → Nat
  | .hbm => 24
  | .vmem => 10
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S8192x10000, .f32⟩
  | .hbm, ⟨5, _⟩ => ⟨S8192, .i1⟩
  | .hbm, ⟨6, _⟩ => ⟨S1x10000, .f32⟩
  | .hbm, ⟨7, _⟩ => ⟨S1, .f32⟩
  | .hbm, ⟨8, _⟩ => ⟨S10000x1, .f32⟩
  | .hbm, ⟨9, _⟩ => ⟨S1x1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x10000, .f32⟩
  | .local _ .vmem, ⟨3, _⟩ => ⟨S128x10000, .f32⟩
  | .local _ .vmem, ⟨4, _⟩ => ⟨S10000x1, .f32⟩
  | .local _ .vmem, ⟨5, _⟩ => ⟨S1x1, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1x10000_S10000x1_1_0 : S1x10000.Transposes [1, 0] S10000x1
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S128x10000_S128x10000_0_0 : ∀ a, (![0, 0] : Fin 2 → Nat) a + S128x10000.size a ≤ S128x10000.size a
  h_S128x10000 : 0 < S128x10000.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128x1_S128 : S128x1.ShapeCasts S128
  inb_S128_S128_0 : ∀ a, (![0] : Fin 1 → Nat) a + S128.size a ≤ S128.size a
  h_S128 : 0 < S128.numel
  bcast_S_S8192 : S_.BroadcastsInDim S8192 (![] : Fin 0 → Fin S8192.rank)
  reducesTo_S8192_S_d0 : S8192.ReducesTo [0] S_
  h_S_ : 0 < S_.numel
  dot_S128x10000_S10000x1_S128x1_1_0_0_1_n_n_wf : DotDims.WF S128x10000 S10000x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S8192x10000.size a
  hwx0_1 : ∀ i : grid0.Coords, EltTy.bits .f32 = 32 ∨ (Rect.block (s := S8192x10000) S128x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S10000x1.size a
  hwx0_2 : ∀ i : grid0.Coords, EltTy.bits .f32 = 32 ∨ (Rect.block (s := S10000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S8192.size a
  hwx0_5 : ∀ i : grid0.Coords, EltTy.bits .f32 = 32 ∨ (Rect.block (s := S8192) S128.size (cc0_transform_5 i) (hinb0_5 i)).WholeWords (EltTy.packing .f32)

variable [Facts₀]

def dot_S128x10000_S10000x1_S128x1_1_0_0_1_n_n : DotDims S128x10000 S10000x1 S128x1 where
  lhsContracting := [1]
  rhsContracting := [0]
  lhsNonContracting := [0]
  rhsNonContracting := [1]
  lhsBatch := []
  rhsBatch := []
  wf := dot_S128x10000_S10000x1_S128x1_1_0_0_1_n_n_wf

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S8192 : Shape := ⟨1, ![8192]⟩
abbrev S_ : Shape := ⟨0, ![]⟩
abbrev S1x10000 : Shape := ⟨2, ![1, 10000]⟩
abbrev S1 : Shape := ⟨1, ![1]⟩
abbrev S8192x1 : Shape := ⟨2, ![8192, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S8192x10000, .f32⟩
  | .hbm, ⟨5, _⟩ => ⟨S8192, .i1⟩
  | .hbm, ⟨6, _⟩ => ⟨S1x10000, .f32⟩
  | .hbm, ⟨7, _⟩ => ⟨S1, .f32⟩
  | .hbm, ⟨8, _⟩ => ⟨S8192x1, .f32⟩
  | .hbm, ⟨9, _⟩ => ⟨S1x1, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_call2_v0 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S8192x10000_S1x10000_S8192x1_1_1_0_0_n_n_wf : DotDims.WF S8192x10000 S1x10000 S8192x1 [1] [1] [0] [0] [] []

variable [Facts₀]

def dot_S8192x10000_S1x10000_S8192x1_1_1_0_0_n_n : DotDims S8192x10000 S1x10000 S8192x1 where
  lhsContracting := [1]
  rhsContracting := [1]
  lhsNonContracting := [0]
  rhsNonContracting := [0]
  lhsBatch := []
  rhsBatch := []
  wf := dot_S8192x10000_S1x10000_S8192x1_1_1_0_0_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelScore.lean ====
/-
  What the kernel body stores, read at a row of the block.

  The body loads a 128-row block of the state (resp. next-state) matrix, the weight column [10000, 1] and the 1×1 bias,
  narrows the two matrix operands (the identity on extended reals), multiplies block by column on the matrix unit into a
  zero accumulator, drops the unit column, adds the bias to every row and clamps at the zero word.  Row `p` of the
  stored vector is therefore
      max (∑ k, x[p, k] · w[k, 0] + b[0, 0]) 0.
  The product is read by the general lemma for a plain [M, K] × [K, N] product; the record's four index facts are those
  of contracting the left operand's axis 1 with the right operand's axis 0.
-/
import proofs.«154810_j31782757990809_1_alg».proof.Proof.Gen.KernelIdeal.Skeleton
import proofs.«154810_j31782757990809_1_alg».proof.Proof.LibPlainMatmul
import Idealize.ShloMosaic.Lib.Pipeline.Value

noncomputable section

open scoped BigOperators
open Idealize.ShloMosaic Idealize.ShloMosaic.ValueIdx

namespace Cert.KernelIdeal.Score

open Cert.KernelIdeal Cert.KernelIdeal.Gen

/-! ## The product's index maps -/

theorem lhs_row (i : S128x1.Idx) (q : dot_S128x10000_S10000x1_S128x1_1_0_0_1_n_n.contr.Idx) :
    (dot_S128x10000_S10000x1_S128x1_1_0_0_1_n_n.lhsIdx i q 0).val = (i 0).val := by
  unfold DotDims.lhsIdx
  rw [dif_neg (show ¬(0 : Fin S128x10000.rank) ∈ dot_S128x10000_S10000x1_S128x1_1_0_0_1_n_n.lhsBatch by decide), dif_pos (show (0 : Fin S128x10000.rank) ∈ dot_S128x10000_S10000x1_S128x1_1_0_0_1_n_n.lhsNonContracting by decide)]
  rfl

theorem lhs_contr (i : S128x1.Idx) (q : dot_S128x10000_S10000x1_S128x1_1_0_0_1_n_n.contr.Idx) :
    (dot_S128x10000_S10000x1_S128x1_1_0_0_1_n_n.lhsIdx i q 1).val = (q ⟨0, by decide⟩).val :=
  dot_S128x10000_S10000x1_S128x1_1_0_0_1_n_n.lhsIdx_val_of_single rfl i q

theorem rhs_contr (i : S128x1.Idx) (q : dot_S128x10000_S10000x1_S128x1_1_0_0_1_n_n.contr.Idx) :
    (dot_S128x10000_S10000x1_S128x1_1_0_0_1_n_n.rhsIdx i q 0).val = (q ⟨0, by decide⟩).val :=
  dot_S128x10000_S10000x1_S128x1_1_0_0_1_n_n.rhsIdx_val_of_single rfl i q

theorem rhs_col (i : S128x1.Idx) (q : dot_S128x10000_S10000x1_S128x1_1_0_0_1_n_n.contr.Idx) :
    (dot_S128x10000_S10000x1_S128x1_1_0_0_1_n_n.rhsIdx i q 1).val = (i 1).val := by
  unfold DotDims.rhsIdx
  rw [dif_neg (show ¬(1 : Fin S10000x1.rank) ∈ dot_S128x10000_S10000x1_S128x1_1_0_0_1_n_n.rhsBatch by decide), dif_pos (show (1 : Fin S10000x1.rank) ∈ dot_S128x10000_S10000x1_S128x1_1_0_0_1_n_n.rhsNonContracting by decide)]
  rfl

/-! ## The pieces -/

/-- The narrowed weight column is the loaded column: a cast to its own shape, then a change of format. -/
theorem weight_eq (w : Vec Ideal S10000x1 .f32) : k0_pay1 (F := Ideal) w = w := by
  funext i
  unfold k0_pay1
  show shapeCast S10000x1 w shapeCasts_S10000x1_S10000x1 i = w i
  rw [shapeCast_self]

/-- The extracted bias is the 1×1 block's one element. -/
theorem bias_eq (b : Vec Ideal S1x1 .f32) : k0_pay2 (F := Ideal) b = b (ix2 (0 : Fin 1) (0 : Fin 1)) := by
  unfold k0_pay2 extractAt
  exact congrArg b (funext fun a => Fin.ext (by
    match a with
    | ⟨0, _⟩ => rfl
    | ⟨1, _⟩ => rfl))

/-- The block-by-column product into zero, at row `p` of its one column. -/
theorem product_row (x : Vec Ideal S128x10000 .f32) (w : Vec Ideal S10000x1 .f32) (p : Fin 128) :
    (matmul dot_S128x10000_S10000x1_S128x1_1_0_0_1_n_n none (truncf .bf16 x bitsLt_bf16_f32 : FVec Ideal S128x10000 .bf16) (k0_pay1 (F := Ideal) w)
        (constant (F := Ideal) S128x1 .f32 0x00000000#32) : FVec Ideal S128x1 .f32) (ix2 p (0 : Fin 1))
      = ∑ k : Fin 10000, x (ix2 p k) * w (ix2 k (0 : Fin 1)) := by
  rw [weight_eq]
  exact Cert.LibPlainMatmul.matmul_zero_apply dot_S128x10000_S10000x1_S128x1_1_0_0_1_n_n none rfl rfl lhs_row lhs_contr rhs_contr rhs_col
    (truncf .bf16 x bitsLt_bf16_f32 : FVec Ideal S128x10000 .bf16) w p (0 : Fin 1)

/-- Dropping the unit column: row `p` of the vector is entry `(p, 0)` of the column. -/
theorem dropCol_row (v : FVec Ideal S128x1 .f32) (p : Fin 128) :
    shapeCast S128 v shapeCasts_S128x1_S128 (ix1 p) = v (ix2 p (0 : Fin 1)) :=
  shapeCast_apply v shapeCasts_S128x1_S128 (ix1 p) (ix2 p (0 : Fin 1))
    (by rw [Shape.rowMajor_val_two, Shape.rowMajor_val_one]; show p.val * 1 + 0 = p.val; omega)

/-! ## The two stored vectors -/

/-- The state scores' block, at row `p`. -/
theorem stateRow (w : Vec Ideal S10000x1 .f32) (x : Vec Ideal S128x10000 .f32) (b : Vec Ideal S1x1 .f32) (p : Fin 128) :
    k0_pay3 (F := Ideal) w x b (ix1 p)
      = max ((∑ k : Fin 10000, x (ix2 p k) * w (ix2 k (0 : Fin 1))) + b (ix2 (0 : Fin 1) (0 : Fin 1)))
          (Ideal.ofBits .f32 0x00000000#32) := by
  unfold k0_pay3
  show max (shapeCast S128 _ shapeCasts_S128x1_S128 (ix1 p) + k0_pay2 (F := Ideal) b) (Ideal.ofBits .f32 0x00000000#32) = _
  rw [dropCol_row, product_row, bias_eq]

/-- The next-state scores' block, at row `p`. -/
theorem nextRow (w : Vec Ideal S10000x1 .f32) (x : Vec Ideal S128x10000 .f32) (b : Vec Ideal S1x1 .f32) (p : Fin 128) :
    k0_pay4 (F := Ideal) w x b (ix1 p)
      = max ((∑ k : Fin 10000, x (ix2 p k) * w (ix2 k (0 : Fin 1))) + b (ix2 (0 : Fin 1) (0 : Fin 1)))
          (Ideal.ofBits .f32 0x00000000#32) := by
  unfold k0_pay4
  show max (shapeCast S128 _ shapeCasts_S128x1_S128 (ix1 p) + k0_pay2 (F := Ideal) b) (Ideal.ofBits .f32 0x00000000#32) = _
  rw [dropCol_row, product_row, bias_eq]

end Cert.KernelIdeal.Score

end
-- ==== Proof.Spec.lean ====
/-
  The double-Q-learning loss, as one function of the argument arrays over the extended reals.

  For a batch row `r` the linear layer with a rectified output is
      score X W b r = max (∑ k, X[r, k] · W[0, k] + b[0]) 0,
  the per-sample temporal-difference error is |reward[r] + discount · score(next)[r] − score(state)[r]|, zeroed where the
  sample is done, and the loss is the sum of these over the batch divided by the batch size.  Both programs end in the
  same chain of whole-array operations on the two score vectors; it is carried here as one function (`lossOfScores`),
  never opened.
-/
import Idealize.ShloMosaic.PureOps.Ideal.Laws
import Idealize.ShloMosaic.Lib.ValueIdx

noncomputable section

open scoped BigOperators
open Idealize.ShloMosaic Idealize.ShloMosaic.ValueIdx

namespace Cert.QLoss

/-- One row of the rectified linear layer: the row's dot product with the weight row, plus the bias, clamped below at the
    value of the zero word. -/
def scoreRow (X : FVec Ideal ⟨2, ![8192, 10000]⟩ .f32) (W : FVec Ideal ⟨2, ![1, 10000]⟩ .f32) (b : FVec Ideal ⟨1, ![1]⟩ .f32)
    (r : Fin 8192) : EReal :=
  max ((∑ k : Fin 10000, X (ix2 r k) * W (ix2 (0 : Fin 1) k)) + b (ix1 (0 : Fin 1))) (Ideal.ofBits .f32 0x00000000#32)

/-- The rectified linear layer on every row of the batch. -/
def score (X : FVec Ideal ⟨2, ![8192, 10000]⟩ .f32) (W : FVec Ideal ⟨2, ![1, 10000]⟩ .f32) (b : FVec Ideal ⟨1, ![1]⟩ .f32) :
    FVec Ideal ⟨1, ![8192]⟩ .f32 := fun i => scoreRow X W b (i 0)

theorem score_ix1 (X : FVec Ideal ⟨2, ![8192, 10000]⟩ .f32) (W : FVec Ideal ⟨2, ![1, 10000]⟩ .f32) (b : FVec Ideal ⟨1, ![1]⟩ .f32)
    (r : Fin 8192) : score X W b (ix1 r) = scoreRow X W b r := rfl

/-- The loss from the two score vectors: mean over the batch of the absolute temporal-difference error, a done sample
    contributing the zero word's value.  The shape facts the operations take are arguments, so that each program supplies
    its own. -/
def lossOfScores (hb : (⟨0, ![]⟩ : Shape).BroadcastsInDim ⟨1, ![8192]⟩ (![] : Fin 0 → Fin 1))
    (hr : (⟨1, ![8192]⟩ : Shape).ReducesTo [0] ⟨0, ![]⟩) (hs : 0 < (⟨0, ![]⟩ : Shape).numel)
    (done : IVec ⟨1, ![8192]⟩ 1) (reward : FVec Ideal ⟨1, ![8192]⟩ .f32) (discount : FVec Ideal ⟨0, ![]⟩ .f32)
    (q nq : FVec Ideal ⟨1, ![8192]⟩ .f32) : FVec Ideal ⟨0, ![]⟩ .f32 :=
  Host.divf (F := Ideal)
    (Host.reduceAdd (F := Ideal)
      (select done (broadcastInDim ⟨1, ![8192]⟩ ![] hb (constant (F := Ideal) ⟨0, ![]⟩ .f32 0x00000000#32))
        (Host.absf (F := Ideal) (subf (addf reward (mulf (broadcastInDim ⟨1, ![8192]⟩ ![] hb discount) nq)) q)))
      (constant (F := Ideal) ⟨0, ![]⟩ .f32 0x00000000#32) hr hs)
    (constant (F := Ideal) ⟨0, ![]⟩ .f32 0x46000000#32)

end Cert.QLoss

end
-- ==== Proof.KernelArrays.lean ====
/-
  The two arrays the kernel region leaves: the state scores and the next-state scores of the whole batch.

  The grid has 64 points; point `t` stages rows `128 t … 128 t + 127` of the state matrix and of the next-state matrix,
  the whole weight column (the weight row transposed by the host line before the region) and the 1×1 bias (the bias
  vector reshaped), and writes back entries `128 t … 128 t + 127` of each score vector.  Row `p` of what it writes is
  `max (∑ k, X[128 t + p, k] · W[0, k] + b[0]) 0`, which is entry `128 t + p` of `Cert.QLoss.score`; the 64 blocks
  tile the 8192 entries, so each output array ends holding `score` of its matrix.
-/
import proofs.«154810_j31782757990809_1_alg».proof.Proof.Gen.KernelIdeal.Frame
import proofs.«154810_j31782757990809_1_alg».proof.Proof.KernelScore
import proofs.«154810_j31782757990809_1_alg».proof.Proof.Spec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.QLoss

variable (m : (ℓ : Loc nD τ sig) → Buf (Elt Ideal) ℓ) (ρ : Dev nD → PrngReg)

theorem zeros1 : (![0] : Fin 1 → Nat) = fun _ => 0 := funext fun a => by fin_cases a; rfl
theorem zeros2 : (![0, 0] : Fin 2 → Nat) = fun _ => 0 := funext fun a => by fin_cases a <;> rfl

/-! ## The index maps over the grid -/

/-- Point `t` reads row block `t` of both matrices, the one block of the weight column and of the bias, and writes block
    `t` of both score vectors. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val ∧ win0_5.index t (0 : Fin 1) = t.val :=
  (by decide +kernel : ∀ t : Fin grid0.N, _)

/-- The batch row that row `p` of point `t`'s block is. -/
def rowAt (t : Fin cfg0.N) (p : Fin 128) : Fin 8192 :=
  ⟨t.val * 128 + p.val, by have h := t.isLt; have hN : cfg0.N = 64 := N_0; have := p.isLt; omega⟩

/-! ## The arrays the host lines before the region wrote -/

/-- The weight column the region stages is the weight row transposed. -/
theorem weightArr (c : Dev nD) :
    (V m c main_v0 : S10000x1.Idx → EReal)
      = transpose S10000x1 [1, 0] (m ((c : Thread nD τ).loc main_arg6)) transposes_S1x10000_S10000x1_1_0 := by
  show StableHlo.after hostOps0 (fun b => m (c, b)) (Proc.devRef .tc main_v0) = _
  after_results <;> rfl

/-- The 1×1 bias the region stages is the bias vector reshaped. -/
theorem biasArr (c : Dev nD) :
    (V m c main_v1 : S1x1.Idx → EReal)
      = shapeCast S1x1 (m ((c : Thread nD τ).loc main_arg7)) shapeCasts_S1_S1x1 := by
  show StableHlo.after hostOps0 (fun b => m (c, b)) (Proc.devRef .tc main_v1) = _
  after_results <;> rfl

/-! ## The staged blocks, read at an index -/

/-- Row `p`, column `k` of point `t`'s block of the state matrix is row `128 t + p` of the matrix as launched. -/
theorem stateBlk (c : Dev nD) (t : Fin cfg0.N) (p : Fin 128) (k : Fin 10000) :
    (iblk m c 0 t : Vec Ideal S128x10000 .f32) (ix2 p k)
      = (m ((c : Thread nD τ).loc main_arg0) : S8192x10000.Idx → EReal) (ix2 (rowAt t p) k) := by
  obtain ⟨e0, e1, -⟩ := blockIndex t
  unfold iblk
  rw [View.read_apply]
  show V m c main_arg0 _ = _
  rw [V_main_arg0]
  refine congrArg _ (funext fun a => Fin.ext ?_)
  match a with
  | ⟨0, _⟩ => show win0_0.index t (0 : Fin 2) * 128 + 1 * p.val = t.val * 128 + p.val; rw [e0]; omega
  | ⟨1, _⟩ => show win0_0.index t (1 : Fin 2) * 10000 + 1 * k.val = k.val; rw [e1]; omega

/-- The same for the next-state matrix. -/
theorem nextBlk (c : Dev nD) (t : Fin cfg0.N) (p : Fin 128) (k : Fin 10000) :
    (iblk m c 1 t : Vec Ideal S128x10000 .f32) (ix2 p k)
      = (m ((c : Thread nD τ).loc main_arg4) : S8192x10000.Idx → EReal) (ix2 (rowAt t p) k) := by
  obtain ⟨-, -, e0, e1, -⟩ := blockIndex t
  unfold iblk
  rw [View.read_apply]
  show V m c main_arg4 _ = _
  rw [V_main_arg4]
  refine congrArg _ (funext fun a => Fin.ext ?_)
  match a with
  | ⟨0, _⟩ => show win0_1.index t (0 : Fin 2) * 128 + 1 * p.val = t.val * 128 + p.val; rw [e0]; omega
  | ⟨1, _⟩ => show win0_1.index t (1 : Fin 2) * 10000 + 1 * k.val = k.val; rw [e1]; omega

/-- Entry `(k, 0)` of the staged weight column is entry `(0, k)` of the weight row as launched. -/
theorem weightBlk (c : Dev nD) (t : Fin cfg0.N) (k : Fin 10000) :
    (iblk m c 2 t : Vec Ideal S10000x1 .f32) (ix2 k (0 : Fin 1))
      = (m ((c : Thread nD τ).loc main_arg6) : S1x10000.Idx → EReal) (ix2 (0 : Fin 1) k) := by
  obtain ⟨-, -, -, -, e0, e1, -⟩ := blockIndex t
  unfold iblk
  rw [View.read_apply]
  show (V m c main_v0 : S10000x1.Idx → EReal) _ = _
  rw [weightArr]
  refine transpose_apply [1, 0] _ transposes_S1x10000_S10000x1_1_0 _ (ix2 (0 : Fin 1) k) fun b => ?_
  match b with
  | ⟨0, _⟩ => show k.val = win0_2.index t (0 : Fin 2) * 10000 + 1 * k.val; rw [e0]; omega
  | ⟨1, _⟩ => show 0 = win0_2.index t (1 : Fin 2) * 1 + 1 * 0; rw [e1]

/-- The staged 1×1 bias holds the bias vector's one element. -/
theorem biasBlk (c : Dev nD) (t : Fin cfg0.N) :
    (iblk m c 3 t : Vec Ideal S1x1 .f32) (ix2 (0 : Fin 1) (0 : Fin 1))
      = (m ((c : Thread nD τ).loc main_arg7) : S1.Idx → EReal) (ix1 (0 : Fin 1)) := by
  obtain ⟨-, -, -, -, -, -, e0, e1, -⟩ := blockIndex t
  unfold iblk
  rw [View.read_apply]
  show (V m c main_v1 : S1x1.Idx → EReal) _ = _
  rw [biasArr]
  refine shapeCast_apply _ shapeCasts_S1_S1x1 _ (ix1 (0 : Fin 1)) ?_
  rw [Shape.rowMajor_val_two, Shape.rowMajor_val_one]
  show 0 = (win0_3.index t (0 : Fin 2) * 1 + 1 * 0) * 1 + (win0_3.index t (1 : Fin 2) * 1 + 1 * 0)
  rw [e0, e1]

/-! ## What the body leaves, at a row -/

/-- The state scores' staging buffer after the body, at row `p`, from the four staged blocks. -/
theorem stateOut_row (x0 x1 : Vec Ideal S128x10000 .f32) (x2 : Vec Ideal S10000x1 .f32) (x3 : Vec Ideal S1x1 .f32) (p : Fin 128) :
    out0_4 (F := Ideal) x0 x1 x2 x3 (ix1 p)
      = max ((∑ k : Fin 10000, x0 (ix2 p k) * x2 (ix2 k (0 : Fin 1))) + x3 (ix2 (0 : Fin 1) (0 : Fin 1)))
          (Ideal.ofBits .f32 0x00000000#32) := by
  unfold out0_4
  rw [View.canon_unit_zero zeros1]
  simp only [View.ld_unit_zero (S := S10000x1) zeros2, View.ld_unit_zero (S := S128x10000) zeros2, View.ld_unit_zero (S := S1x1) zeros2]
  exact Score.stateRow x2 x0 x3 p

/-- The next-state scores' staging buffer after the body, at row `p`. -/
theorem nextOut_row (x0 x1 : Vec Ideal S128x10000 .f32) (x2 : Vec Ideal S10000x1 .f32) (x3 : Vec Ideal S1x1 .f32) (p : Fin 128) :
    out0_5 (F := Ideal) x0 x1 x2 x3 (ix1 p)
      = max ((∑ k : Fin 10000, x1 (ix2 p k) * x2 (ix2 k (0 : Fin 1))) + x3 (ix2 (0 : Fin 1) (0 : Fin 1)))
          (Ideal.ofBits .f32 0x00000000#32) := by
  unfold out0_5
  rw [View.canon_unit_zero zeros1]
  simp only [View.ld_unit_zero (S := S10000x1) zeros2, View.ld_unit_zero (S := S128x10000) zeros2, View.ld_unit_zero (S := S1x1) zeros2]
  exact Score.nextRow x2 x1 x3 p

/-! ## What each point writes back -/

/-- The state scores of the batch, from the arrays as launched. -/
abbrev stateScores (c : Dev nD) : S8192.Idx → EReal :=
  score (m ((c : Thread nD τ).loc main_arg0)) (m ((c : Thread nD τ).loc main_arg6)) (m ((c : Thread nD τ).loc main_arg7))

/-- The next-state scores of the batch. -/
abbrev nextScores (c : Dev nD) : S8192.Idx → EReal :=
  score (m ((c : Thread nD τ).loc main_arg4)) (m ((c : Thread nD τ).loc main_arg6)) (m ((c : Thread nD τ).loc main_arg7))

/-- Point `t` writes back block `t` of the state scores. -/
theorem stateFlushed (c : Dev nD) (t : Fin cfg0.N) :
    (dats m 0 c).flushed 4 t = ((cfg0.win 4).blk t).view.read (Elt Ideal) (stateScores m c) := by
  obtain ⟨-, -, -, -, -, -, -, -, e4, -⟩ := blockIndex t
  show (cfg0.win 4).cut (grid0.coords t) ((dats m 0 c).after 4 t) = _
  rw [after0_4]
  funext j
  obtain ⟨p, rfl⟩ : ∃ p : Fin 128, j = ix1 p := ⟨j 0, eq_ix1 j⟩
  refine (stateOut_row _ _ _ _ p).trans ?_
  have he : ((cfg0.win 4).blk t).view.emb (ix1 p) = ix1 (rowAt t p) := funext fun a => Fin.ext (by
    match a with
    | ⟨0, _⟩ => show win0_4.index t (0 : Fin 1) * 128 + 1 * p.val = t.val * 128 + p.val; rw [e4]; omega)
  show _ = stateScores m c (((cfg0.win 4).blk t).view.emb (ix1 p))
  rw [he]
  show _ = scoreRow _ _ _ (rowAt t p)
  unfold scoreRow
  simp only [stateBlk, weightBlk, biasBlk]

/-- Point `t` writes back block `t` of the next-state scores. -/
theorem nextFlushed (c : Dev nD) (t : Fin cfg0.N) :
    (dats m 0 c).flushed 5 t = ((cfg0.win 5).blk t).view.read (Elt Ideal) (nextScores m c) := by
  obtain ⟨-, -, -, -, -, -, -, -, -, e5⟩ := blockIndex t
  show (cfg0.win 5).cut (grid0.coords t) ((dats m 0 c).after 5 t) = _
  rw [after0_5]
  funext j
  obtain ⟨p, rfl⟩ : ∃ p : Fin 128, j = ix1 p := ⟨j 0, eq_ix1 j⟩
  refine (nextOut_row _ _ _ _ p).trans ?_
  have he : ((cfg0.win 5).blk t).view.emb (ix1 p) = ix1 (rowAt t p) := funext fun a => Fin.ext (by
    match a with
    | ⟨0, _⟩ => show win0_5.index t (0 : Fin 1) * 128 + 1 * p.val = t.val * 128 + p.val; rw [e5]; omega)
  show _ = nextScores m c (((cfg0.win 5).blk t).view.emb (ix1 p))
  rw [he]
  show _ = scoreRow _ _ _ (rowAt t p)
  unfold scoreRow
  simp only [nextBlk, weightBlk, biasBlk]

/-! ## The blocks tile the batch -/

theorem mem_stateBlk (t : Fin cfg0.N) (i : S8192.Idx) :
    i ∈ ((cfg0.win 4).blk t).view.set ↔ ∀ a : Fin 1, win0_4.index t a * S128.size a ≤ (i a).val ∧ (i a).val < win0_4.index t a * S128.size a + S128.size a := by
  show i ∈ ((View.whole main_v2_0).slice (win0_4.rect t)).set ↔ _
  rw [View.set_slice_whole, Rect.mem_set_unit]
  exact Iff.rfl

theorem mem_nextBlk (t : Fin cfg0.N) (i : S8192.Idx) :
    i ∈ ((cfg0.win 5).blk t).view.set ↔ ∀ a : Fin 1, win0_5.index t a * S128.size a ≤ (i a).val ∧ (i a).val < win0_5.index t a * S128.size a + S128.size a := by
  show i ∈ ((View.whole main_v2_1).slice (win0_5.rect t)).set ↔ _
  rw [View.set_slice_whole, Rect.mem_set_unit]
  exact Iff.rfl

/-- The point whose block holds batch entry `i`: `i / 128`. -/
def pointOf (i : S8192.Idx) : Fin cfg0.N :=
  ⟨(i 0).val / 128, by have h : (i 0).val < 8192 := (i 0).isLt; rw [show cfg0.N = 64 from N_0]; omega⟩

theorem stateCover (i : S8192.Idx) : ∃ t : Fin cfg0.N, (cfg0.win 4).flush t = true ∧ i ∈ ((cfg0.win 4).blk t).view.set := by
  obtain ⟨-, -, -, -, -, -, -, -, e4, -⟩ := blockIndex (pointOf i)
  refine ⟨pointOf i, flush0_4 _, ?_⟩
  rw [mem_stateBlk]
  intro a
  match a with
  | ⟨0, _⟩ =>
    show win0_4.index (pointOf i) (0 : Fin 1) * 128 ≤ (i 0).val ∧ (i 0).val < win0_4.index (pointOf i) (0 : Fin 1) * 128 + 128
    rw [e4]
    show (i 0).val / 128 * 128 ≤ (i 0).val ∧ (i 0).val < (i 0).val / 128 * 128 + 128
    omega

theorem nextCover (i : S8192.Idx) : ∃ t : Fin cfg0.N, (cfg0.win 5).flush t = true ∧ i ∈ ((cfg0.win 5).blk t).view.set := by
  obtain ⟨-, -, -, -, -, -, -, -, -, e5⟩ := blockIndex (pointOf i)
  refine ⟨pointOf i, flush0_5 _, ?_⟩
  rw [mem_nextBlk]
  intro a
  match a with
  | ⟨0, _⟩ =>
    show win0_5.index (pointOf i) (0 : Fin 1) * 128 ≤ (i 0).val ∧ (i 0).val < win0_5.index (pointOf i) (0 : Fin 1) * 128 + 128
    rw [e5]
    show (i 0).val / 128 * 128 ≤ (i 0).val ∧ (i 0).val < (i 0).val / 128 * 128 + 128
    omega

/-! ## The arrays after the region -/

theorem stateFinal (c : Dev nD) : (dats m 0 c).arrAt 4 cfg0.N = stateScores m c :=
  (dats m 0 c).arrAt_eq_of_cover 4 (stateScores m c) (fun t _ => stateFlushed m c t) stateCover

theorem nextFinal (c : Dev nD) : (dats m 0 c).arrAt 5 cfg0.N = nextScores m c :=
  (dats m 0 c).arrAt_eq_of_cover 5 (nextScores m c) (fun t _ => nextFlushed m c t) nextCover

end Cert.KernelIdeal.Arrays

end
-- ==== Proof.KernelRun.lean ====
/-
  The kernel program's run, read: its result is the loss of the two score vectors.

  After the region the two score arrays hold `score` of the state and of the next-state matrix; every other buffer the
  remaining host lines read — the done flags, the rewards, the discount — holds what it held at launch.  Those lines
  (scale the next-state scores by the discount, add the rewards, subtract the state scores, take the absolute value, put
  the zero word's value where the sample is done, sum over the batch, divide by the batch size) are the shared chain
  `Cert.QLoss.lossOfScores`, so the result buffer ends at that chain of the five values.
-/
import proofs.«154810_j31782757990809_1_alg».proof.Proof.KernelArrays

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.QLoss Cert.KernelIdeal.Arrays

variable (m : (ℓ : Loc nD τ sig) → Buf (Elt Ideal) ℓ) (ρ : Dev nD → PrngReg)

/-! ## The buffers as the region leaves them -/

/-- Core `c`'s buffer contents at the region's exit: the region's arrays at what the grid's write-backs left, every
    other buffer as the region found it. -/
abbrev exitVal (c : Dev nD) : Valuation τ sig (Elt Ideal) :=
  Pipeline.withArrays (cfgs 0).spec c (V0 m c) (fun w => (dats m 0 c).arrAt w (cfgs 0).N)

/-- The done flags are no array of the region and no host line before it writes them. -/
theorem exit_done (c : Dev nD) : exitVal m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)

/-- Nor the rewards. -/
theorem exit_reward (c : Dev nD) : exitVal m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)

/-- Nor the discount. -/
theorem exit_discount (c : Dev nD) : exitVal m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- The region's first result is the state scores. -/
theorem exit_state (c : Dev nD) : exitVal m c (Proc.devRef .tc main_v2_0) = stateScores m c :=
  (Pipeline.withArrays_arr spec0 launch0.win.arr_inj c _ _ 4).trans (stateFinal m c)

/-- Its second result is the next-state scores. -/
theorem exit_next (c : Dev nD) : exitVal m c (Proc.devRef .tc main_v2_1) = nextScores m c :=
  (Pipeline.withArrays_arr spec0 launch0.win.arr_inj c _ _ 5).trans (nextFinal m c)

/-! ## The result -/

/-- The loss, from the arrays as launched. -/
def loss (c : Dev nD) : FVec Ideal ⟨0, ![]⟩ .f32 :=
  lossOfScores bcast_S_S8192 reducesTo_S8192_S_d0 h_S_
    (m ((c : Thread nD τ).loc main_arg5)) (m ((c : Thread nD τ).loc main_arg2)) (m ((c : Thread nD τ).loc main_arg3))
    (stateScores m c) (nextScores m c)

/-- What the host lines after the region leave in the result buffer. -/
theorem result_eq (c : Dev nD) :
    Pipeline.afterTail₀ cfgs (dats m) 0 (V0 m) [hostOps1, hostOps1_1, hostOps1_2] c main_v10 = loss m c := by
  unfold Pipeline.afterTail₀
  simp only [hostOps1, hostOps1_1, hostOps1_2, List.flatten_cons, List.flatten_nil, List.append_nil, List.cons_append, List.nil_append]
  after_results
  show lossOfScores bcast_S_S8192 reducesTo_S8192_S_d0 h_S_
      (exitVal m c (Proc.devRef .tc main_arg5)) (exitVal m c (Proc.devRef .tc main_arg2)) (exitVal m c (Proc.devRef .tc main_arg3))
      (exitVal m c (Proc.devRef .tc main_v2_0)) (exitVal m c (Proc.devRef .tc main_v2_1)) = _
  rw [exit_done, exit_reward, exit_discount, exit_state, exit_next]
  rfl

/-! ## The run -/

/-- Every weakly fair execution terminates with the result buffer at the loss and the arguments as launched: a staged
    matrix by the library's account of an input window, the others because no host line writes them. -/
theorem run : θ_run defs (onTc (τ := τ) (main (F := Ideal))) ⟨m, fun _ => 0, ρ⟩ fun r => ∀ c : Dev nD,
      r.2.mem ((c.tc : Thread nD τ).loc main_v10) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v10 (Pipeline.mem_restRefs_of main_v10 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.RefValue.lean ====
/-
  The reference, read as the loss of two score vectors.

  Its two `dot_general`s contract the feature axis of the state (resp. next-state) matrix with the weight row's; after
  the bias (broadcast from the one-element vector), the clamp at zero and the reshape that drops the unit column, each is
  the score vector `Cert.QLoss.score`: row `r` reads `max (∑ k, X[r, k] · W[0, k] + b[0]) 0`.  The rest of the
  program is the shared chain `Cert.QLoss.lossOfScores`.
-/
import proofs.«154810_j31782757990809_1_alg».proof.Proof.Gen.ReferenceIdeal.Read
import proofs.«154810_j31782757990809_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.QLoss

/-! Row `r` of the reshaped vector sits at `(r, 0)` of the column; there the product's left index at `k` is `(r, k)`,
its right index `(0, k)`, and both broadcasts of the bias read its one element. -/

theorem lidx_q (r : Fin 8192) (k : Fin 10000) : lidx_main_v0 (idx_main_v5 (ix1 r)) k = ix2 r k :=
  funext fun a => Fin.ext (by
    match a with
    | ⟨0, _⟩ => show r.val / 1 = r.val; exact Nat.div_one _
    | ⟨1, _⟩ => rfl)

theorem ridx_q (r : Fin 8192) (k : Fin 10000) : ridx_main_v0 (idx_main_v5 (ix1 r)) k = ix2 (0 : Fin 1) k :=
  funext fun a => Fin.ext (by
    match a with
    | ⟨0, _⟩ => rfl
    | ⟨1, _⟩ => rfl)

theorem bidx_q (r : Fin 8192) : idx_main_v1 (idx_main_v2 (idx_main_v5 (ix1 r))) = ix1 (0 : Fin 1) :=
  funext fun a => Fin.ext (by
    match a with
    | ⟨0, _⟩ => rfl)

theorem lidx_nq (r : Fin 8192) (k : Fin 10000) : lidx_main_v6 (idx_main_v11 (ix1 r)) k = ix2 r k :=
  funext fun a => Fin.ext (by
    match a with
    | ⟨0, _⟩ => show r.val / 1 = r.val; exact Nat.div_one _
    | ⟨1, _⟩ => rfl)

theorem ridx_nq (r : Fin 8192) (k : Fin 10000) : ridx_main_v6 (idx_main_v11 (ix1 r)) k = ix2 (0 : Fin 1) k :=
  funext fun a => Fin.ext (by
    match a with
    | ⟨0, _⟩ => rfl
    | ⟨1, _⟩ => rfl)

theorem bidx_nq (r : Fin 8192) : idx_main_v7 (idx_main_v8 (idx_main_v11 (ix1 r))) = ix1 (0 : Fin 1) :=
  funext fun a => Fin.ext (by
    match a with
    | ⟨0, _⟩ => rfl)

/-- The state scores: the reshaped, clamped, biased product is `score` of the same three arrays. -/
theorem q_eq (x0 : FVec Ideal S8192x10000 .f32) (x6 : FVec Ideal S1x10000 .f32) (x7 : FVec Ideal S1 .f32) :
    val_main_v5 (F := Ideal) x0 x6 x7 = score x0 x6 x7 := by
  funext i
  obtain ⟨r, rfl⟩ : ∃ r : Fin 8192, i = ix1 r := ⟨i 0, eq_ix1 i⟩
  rw [val_main_v5_apply, val_main_v4_apply, val_main_v3_apply, val_main_v0_apply, val_main_v2_apply, val_main_v1_apply,
    val_main_call0_v0_apply, val_main_call0_cst_apply, score_ix1, bidx_q]
  simp only [lidx_q, ridx_q]
  rfl

/-- The next-state scores, likewise. -/
theorem nq_eq (x4 : FVec Ideal S8192x10000 .f32) (x6 : FVec Ideal S1x10000 .f32) (x7 : FVec Ideal S1 .f32) :
    val_main_v11 (F := Ideal) x4 x6 x7 = score x4 x6 x7 := by
  funext i
  obtain ⟨r, rfl⟩ : ∃ r : Fin 8192, i = ix1 r := ⟨i 0, eq_ix1 i⟩
  rw [val_main_v11_apply, val_main_v10_apply, val_main_v9_apply, val_main_v6_apply, val_main_v8_apply, val_main_v7_apply,
    val_main_call1_v0_apply, val_main_call1_cst_apply, score_ix1, bidx_nq]
  simp only [lidx_nq, ridx_nq]
  rfl

/-- The program's last stage is the shared chain applied to the two reshaped stages. -/
theorem result_stage (x0 : FVec Ideal S8192x10000 .f32) (x2 : FVec Ideal S8192 .f32) (x3 : FVec Ideal S_ .f32)
    (x4 : FVec Ideal S8192x10000 .f32) (x5 : IVec S8192 1) (x6 : FVec Ideal S1x10000 .f32) (x7 : FVec Ideal S1 .f32) :
    val_main_v19 (F := Ideal) x0 x2 x3 x4 x5 x6 x7
      = lossOfScores Facts₀.bcast_S_S8192 Facts₀.reducesTo_S8192_S_d0 Facts₀.h_S_ x5 x2 x3
          (val_main_v5 (F := Ideal) x0 x6 x7) (val_main_v11 (F := Ideal) x4 x6 x7) := rfl

/-- The reference's result: the loss of the state scores and the next-state scores. -/
theorem result_eq (x0 : FVec Ideal S8192x10000 .f32) (x2 : FVec Ideal S8192 .f32) (x3 : FVec Ideal S_ .f32)
    (x4 : FVec Ideal S8192x10000 .f32) (x5 : IVec S8192 1) (x6 : FVec Ideal S1x10000 .f32) (x7 : FVec Ideal S1 .f32) :
    val_main_v19 (F := Ideal) x0 x2 x3 x4 x5 x6 x7
      = lossOfScores Facts₀.bcast_S_S8192 Facts₀.reducesTo_S8192_S_d0 Facts₀.h_S_ x5 x2 x3
          (score x0 x6 x7) (score x4 x6 x7) := by
  rw [result_stage, q_eq, nq_eq]

end Cert.ReferenceIdeal.RefValue

end
-- ==== Proof.lean ====
/-
  The double-Q-learning loss: a kernel that streams the state and next-state matrices through a rectified linear layer,
  followed by host lines that form the mean absolute temporal-difference error, against the plain reference.

  Over the extended reals both programs compute, for every batch row `r`,
      q[r]  = max (∑ k, state[r, k] · W[0, k] + b[0]) 0,      nq[r] = max (∑ k, next[r, k] · W[0, k] + b[0]) 0,
  and then the same chain of whole-array operations on `q` and `nq`:
      loss = (∑ r, if done[r] then 0 else |reward[r] + discount · nq[r] − q[r]|) / 8192.
  The kernel gets `q` and `nq` block by block (128 rows a grid point, a matrix-unit product of the narrowed block with
  the narrowed weight column into a zero accumulator; narrowing is the identity here), the reference by one
  `dot_general` each; both are the same sum over the feature axis, term for term, so no law beyond reading the two
  products as sums is needed, and the precondition is never opened.  The ideal pass rewrote nothing, so the kernel's
  idealization is the kernel read at the extended reals.
-/
import proofs.«154810_j31782757990809_1_alg».proof.Defs
import proofs.«154810_j31782757990809_1_alg».proof.Proof.Gen.Kernel.Frame
import proofs.«154810_j31782757990809_1_alg».proof.Proof.Gen.KernelIdeal.Frame
import proofs.«154810_j31782757990809_1_alg».proof.Proof.Gen.ReferenceIdeal.Run
import proofs.«154810_j31782757990809_1_alg».proof.Proof.Gen.ReferenceIdeal.Read
import proofs.«154810_j31782757990809_1_alg».proof.Proof.Gen.Pre_finite_inputs
import proofs.«154810_j31782757990809_1_alg».proof.Proof.KernelRun
import proofs.«154810_j31782757990809_1_alg».proof.Proof.RefValue

noncomputable section

namespace Cert.Proof

open Idealize.ShloMosaic Idealize.SL.Sem

/-- The kernel program runs and keeps its arguments. -/
theorem frame_kernel : Cert.frame_Kernel := fun m ρ _ => Cert.Kernel.Gen.frame m ρ

/-- So does it read at the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the loss of the state scores and the next-state scores of the same arrays. -/
theorem algebraic : Cert.algebraic_KernelIdeal_ReferenceIdeal := by
  intro m ρ m' ρ' _ hagree
  refine ⟨fun c => Cert.KernelIdeal.Run.loss m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4, h5, h6, h7⟩ := hagree c
  refine (Cert.ReferenceIdeal.Read.val_main_v19_eq (F := Ideal) _ _ _ _ _ _ _).trans ?_
  rw [Cert.ReferenceIdeal.RefValue.result_eq, h0, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
